-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x384x1248x7 : Shape := ⟨4, ![4, 384, 1248, 7]⟩
abbrev S_ : Shape := ⟨0, ![]⟩

class Facts : Prop where
  bcast_S_S4x384x1248x7 : S_.BroadcastsInDim S4x384x1248x7 (![] : Fin 0 → Fin S4x384x1248x7.rank)
  reducesTo_S4x384x1248x7_S_d0_1_2_3 : S4x384x1248x7.ReducesTo [0, 1, 2, 3] S_
  h_S_ : 0 < S_.numel

variable [Facts]

def fn {F : FTy → Type} [FloatOps F] (main_arg0 : FVec F S4x384x1248x7 .f32) : IVec S_ 1 :=
  let main_v0 : FVec F S4x384x1248x7 .f32 := Host.absf main_arg0
  let main_cst : FVec F S_ .f32 := constant S_ .f32 0x7F800000#32
  let main_v1 : FVec F S4x384x1248x7 .f32 := broadcastInDim S4x384x1248x7 ![] bcast_S_S4x384x1248x7 main_cst
  let main_v2 : IVec S4x384x1248x7 1 := cmpf .olt main_v0 main_v1
  let main_c : IVec S_ 1 := constantI S_ 1 1#1
  let main_v3 : IVec S_ 1 := (fun x v => Host.reduce IntOp.andi x v reducesTo_S4x384x1248x7_S_d0_1_2_3 h_S_) main_v2 main_c
  main_v3
-- ==== Kernel.lean ====
abbrev S4x384x1248x7 : Shape := ⟨4, ![4, 384, 1248, 7]⟩
abbrev S62 : Shape := ⟨1, ![62]⟩
abbrev S_ : Shape := ⟨0, ![]⟩
abbrev S6 : Shape := ⟨1, ![6]⟩
abbrev S62x1 : Shape := ⟨2, ![62, 1]⟩
abbrev S1x6 : Shape := ⟨2, ![1, 6]⟩
abbrev S62x6 : Shape := ⟨2, ![62, 6]⟩
abbrev S6x62 : Shape := ⟨2, ![6, 62]⟩
abbrev S4x384x1248x64 : Shape := ⟨4, ![4, 384, 1248, 64]⟩
abbrev S1x8x1248x7 : Shape := ⟨4, ![1, 8, 1248, 7]⟩
abbrev S1x8x1248x64 : Shape := ⟨4, ![1, 8, 1248, 64]⟩
abbrev S9984x7 : Shape := ⟨2, ![9984, 7]⟩
abbrev S9984x6 : Shape := ⟨2, ![9984, 6]⟩
abbrev S9984x1 : Shape := ⟨2, ![9984, 1]⟩
abbrev S9984x62 : Shape := ⟨2, ![9984, 62]⟩
abbrev S9984x64 : Shape := ⟨2, ![9984, 64]⟩

abbrev nBuf : Space → Nat
  | .hbm => 18
  | .vmem => 7
  | .smem => 0
  | _ => 0

abbrev bufTy : (tb : Table) → Fin (tcTables nBuf tb) → BufTy
  | .hbm, ⟨0, _⟩ => ⟨S4x384x1248x7, .f32⟩
  | .hbm, ⟨1, _⟩ => ⟨S62, .i32⟩
  | .hbm, ⟨2, _⟩ => ⟨S_, .i32⟩
  | .hbm, ⟨3, _⟩ => ⟨S62, .i32⟩
  | .hbm, ⟨4, _⟩ => ⟨S62, .i32⟩
  | .hbm, ⟨5, _⟩ => ⟨S6, .i32⟩
  | .hbm, ⟨6, _⟩ => ⟨S62x1, .i32⟩
  | .hbm, ⟨7, _⟩ => ⟨S1x6, .i32⟩
  | .hbm, ⟨8, _⟩ => ⟨S62x6, .i32⟩
  | .hbm, ⟨9, _⟩ => ⟨S62x6, .i32⟩
  | .hbm, ⟨10, _⟩ => ⟨S62x6, .i32⟩
  | .hbm, ⟨11, _⟩ => ⟨S_, .i32⟩
  | .hbm, ⟨12, _⟩ => ⟨S62x6, .i32⟩
  | .hbm, ⟨13, _⟩ => ⟨S62x6, .i32⟩
  | .hbm, ⟨14, _⟩ => ⟨S62x6, .f32⟩
  | .hbm, ⟨15, _⟩ => ⟨S6x62, .f32⟩
  | .hbm, ⟨16, _⟩ => ⟨S4x384x1248x64, .f32⟩
  | .hbm, ⟨17, _⟩ => ⟨S4x384x1248x64, .f32⟩
  | .local _ .vmem, ⟨0, _⟩ => ⟨S1x8x1248x7, .f32⟩
  | .local _ .vmem, ⟨1, _⟩ => ⟨S1x8x1248x7, .f32⟩
  | .local _ .vmem, ⟨2, _⟩ => ⟨S6x62, .f32⟩
  | .local _ .vmem, ⟨3, _⟩ => ⟨S1x8x1248x64, .f32⟩
  | .local _ .vmem, ⟨4, _⟩ => ⟨S1x8x1248x64, .f32⟩
  | .local _ .vmem, ⟨5, _⟩ => ⟨S1x8x1248x64, .f32⟩
  | .local _ .vmem, ⟨6, _⟩ => ⟨S1x8x1248x64, .f32⟩
  | _, _ => ⟨S4x384x1248x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13_0 : Ref sig .tc := ⟨.hbm, 16, rfl⟩
abbrev main_v13_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 48], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x1248x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S6x62 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x1248x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1248x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S62 : S_.BroadcastsInDim S62 (![] : Fin 0 → Fin S62.rank)
  bcast_S62_S62x1_0 : S62.BroadcastsInDim S62x1 (![0] : Fin 1 → Fin S62x1.rank)
  bcast_S6_S1x6_1 : S6.BroadcastsInDim S1x6 (![1] : Fin 1 → Fin S1x6.rank)
  bcast_S62x1_S62x6_0_1 : S62x1.BroadcastsInDim S62x6 (![0, 1] : Fin 2 → Fin S62x6.rank)
  bcast_S1x6_S62x6_0_1 : S1x6.BroadcastsInDim S62x6 (![0, 1] : Fin 2 → Fin S62x6.rank)
  bcast_S_S62x6 : S_.BroadcastsInDim S62x6 (![] : Fin 0 → Fin S62x6.rank)
  transposes_S62x6_S6x62_1_0 : S62x6.Transposes [1, 0] S6x62
  inb_S1x8x1248x7_S1x8x1248x7_0_0_0_0 : ∀ a, (![0, 0, 0, 0] : Fin 4 → Nat) a + S1x8x1248x7.size a ≤ S1x8x1248x7.size a
  h_S1x8x1248x7 : 0 < S1x8x1248x7.numel
  shapeCasts_S1x8x1248x7_S9984x7 : S1x8x1248x7.ShapeCasts S9984x7
  slices_S9984x7_o0_0_S9984x6 : S9984x7.Slices ![0, 0] S9984x6
  slices_S9984x7_o0_6_S9984x1 : S9984x7.Slices ![0, 6] S9984x1
  inb_S6x62_S6x62_0_0 : ∀ a, (![0, 0] : Fin 2 → Nat) a + S6x62.size a ≤ S6x62.size a
  h_S6x62 : 0 < S6x62.numel
  shapeCasts_S6x62_S6x62 : S6x62.ShapeCasts S6x62
  bitsLt_bf16_f32 : FTy.bits .bf16 < FTy.bits .f32
  concatenates_S9984x1_S9984x62_S9984x1_S9984x64_d1 : Shape.Concatenates [S9984x1, S9984x62, S9984x1] S9984x64 1
  broadcasts_S9984x1_S9984x62 : S9984x1.Broadcasts S9984x62
  shapeCasts_S9984x64_S1x8x1248x64 : S9984x64.ShapeCasts S1x8x1248x64
  inb_S1x8x1248x64_S1x8x1248x64_0_0_0_0 : ∀ a, (![0, 0, 0, 0] : Fin 4 → Nat) a + S1x8x1248x64.size a ≤ S1x8x1248x64.size a
  h_S1x8x1248x64 : 0 < S1x8x1248x64.numel
  dot_S9984x6_S6x62_S9984x62_1_0_0_1_n_n_wf : DotDims.WF S9984x6 S6x62 S9984x62 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x1248x7.size a ≤ S4x384x1248x7.size a
  hwx0_0 : ∀ i : grid0.Coords, EltTy.bits .f32 = 32 ∨ (Rect.block (s := S4x384x1248x7) S1x8x1248x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x62.size a ≤ S6x62.size a
  hwx0_1 : ∀ i : grid0.Coords, EltTy.bits .f32 = 32 ∨ (Rect.block (s := S6x62) S6x62.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x1248x64.size a ≤ S4x384x1248x64.size a
  hwx0_2 : ∀ i : grid0.Coords, EltTy.bits .f32 = 32 ∨ (Rect.block (s := S4x384x1248x64) S1x8x1248x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x1248x64.size a ≤ S4x384x1248x64.size a
  hwx0_3 : ∀ i : grid0.Coords, EltTy.bits .f32 = 32 ∨ (Rect.block (s := S4x384x1248x64) S1x8x1248x64.size (cc0_transform_3 i) (hinb0_3 i)).WholeWords (EltTy.packing .f32)

variable [Facts₀]

def dot_S9984x6_S6x62_S9984x62_1_0_0_1_n_n : DotDims S9984x6 S6x62 S9984x62 where
  lhsContracting := [1]
  rhsContracting := [0]
  lhsNonContracting := [0]
  rhsNonContracting := [1]
  lhsBatch := []
  rhsBatch := []
  wf := dot_S9984x6_S6x62_S9984x62_1_0_0_1_n_n_wf

abbrev win0_0 : Pipeline.Window sig grid0 :=
  Pipeline.Window.ofSpec (Memref.whole main_arg0) S1x8x1248x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S6x62.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13_0) S1x8x1248x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_1) S1x8x1248x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x384x1248x7 : Shape := ⟨4, ![4, 384, 1248, 7]⟩
abbrev S62 : Shape := ⟨1, ![62]⟩
abbrev S_ : Shape := ⟨0, ![]⟩
abbrev S62x1 : Shape := ⟨2, ![62, 1]⟩
abbrev S6 : Shape := ⟨1, ![6]⟩
abbrev S1x6 : Shape := ⟨2, ![1, 6]⟩
abbrev S62x6 : Shape := ⟨2, ![62, 6]⟩
abbrev S4x384x1248x6 : Shape := ⟨4, ![4, 384, 1248, 6]⟩
abbrev S4x384x1248x62 : Shape := ⟨4, ![4, 384, 1248, 62]⟩
abbrev S4x384x1248x1 : Shape := ⟨4, ![4, 384, 1248, 1]⟩
abbrev S4x384x1248x64 : Shape := ⟨4, ![4, 384, 1248, 64]⟩

abbrev nBuf : Space → Nat
  | .hbm => 27
  | .vmem => 0
  | .smem => 0
  | _ => 0

abbrev bufTy : (tb : Table) → Fin (tcTables nBuf tb) → BufTy
  | .hbm, ⟨0, _⟩ => ⟨S4x384x1248x7, .f32⟩
  | .hbm, ⟨1, _⟩ => ⟨S62, .i32⟩
  | .hbm, ⟨2, _⟩ => ⟨S_, .i32⟩
  | .hbm, ⟨3, _⟩ => ⟨S62, .i32⟩
  | .hbm, ⟨4, _⟩ => ⟨S62, .i32⟩
  | .hbm, ⟨5, _⟩ => ⟨S62x1, .i32⟩
  | .hbm, ⟨6, _⟩ => ⟨S6, .i32⟩
  | .hbm, ⟨7, _⟩ => ⟨S1x6, .i32⟩
  | .hbm, ⟨8, _⟩ => ⟨S62x6, .i32⟩
  | .hbm, ⟨9, _⟩ => ⟨S62x6, .i32⟩
  | .hbm, ⟨10, _⟩ => ⟨S62x6, .i32⟩
  | .hbm, ⟨11, _⟩ => ⟨S_, .i32⟩
  | .hbm, ⟨12, _⟩ => ⟨S62x6, .i32⟩
  | .hbm, ⟨13, _⟩ => ⟨S62x6, .i32⟩
  | .hbm, ⟨14, _⟩ => ⟨S62x6, .f32⟩
  | .hbm, ⟨15, _⟩ => ⟨S4x384x1248x6, .f32⟩
  | .hbm, ⟨16, _⟩ => ⟨S4x384x1248x62, .f32⟩
  | .hbm, ⟨17, _⟩ => ⟨S4x384x1248x1, .f32⟩
  | .hbm, ⟨18, _⟩ => ⟨S_, .f32⟩
  | .hbm, ⟨19, _⟩ => ⟨S4x384x1248x1, .f32⟩
  | .hbm, ⟨20, _⟩ => ⟨S_, .f32⟩
  | .hbm, ⟨21, _⟩ => ⟨S4x384x1248x1, .f32⟩
  | .hbm, ⟨22, _⟩ => ⟨S4x384x1248x64, .f32⟩
  | .hbm, ⟨23, _⟩ => ⟨S4x384x1248x1, .f32⟩
  | .hbm, ⟨24, _⟩ => ⟨S4x384x1248x62, .f32⟩
  | .hbm, ⟨25, _⟩ => ⟨S4x384x1248x62, .f32⟩
  | .hbm, ⟨26, _⟩ => ⟨S4x384x1248x64, .f32⟩
  | _, _ => ⟨S4x384x1248x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]

class Facts₀ : Prop where
  bcast_S_S62 : S_.BroadcastsInDim S62 (![] : Fin 0 → Fin S62.rank)
  bcast_S62_S62x1_0 : S62.BroadcastsInDim S62x1 (![0] : Fin 1 → Fin S62x1.rank)
  bcast_S6_S1x6_1 : S6.BroadcastsInDim S1x6 (![1] : Fin 1 → Fin S1x6.rank)
  bcast_S62x1_S62x6_0_1 : S62x1.BroadcastsInDim S62x6 (![0, 1] : Fin 2 → Fin S62x6.rank)
  bcast_S1x6_S62x6_0_1 : S1x6.BroadcastsInDim S62x6 (![0, 1] : Fin 2 → Fin S62x6.rank)
  bcast_S_S62x6 : S_.BroadcastsInDim S62x6 (![] : Fin 0 → Fin S62x6.rank)
  slices_S4x384x1248x7_S4x384x1248x6_0_0_0_0 : S4x384x1248x7.Slices ![0, 0, 0, 0] S4x384x1248x6
  slices_S4x384x1248x7_S4x384x1248x1_0_0_0_0 : S4x384x1248x7.Slices ![0, 0, 0, 0] S4x384x1248x1
  bcast_S_S4x384x1248x1 : S_.BroadcastsInDim S4x384x1248x1 (![] : Fin 0 → Fin S4x384x1248x1.rank)
  concatenates_S4x384x1248x1_S4x384x1248x62_S4x384x1248x1_S4x384x1248x64_d3 : Shape.Concatenates [S4x384x1248x1, S4x384x1248x62, S4x384x1248x1] S4x384x1248x64 3
  slices_S4x384x1248x7_S4x384x1248x1_0_0_0_6 : S4x384x1248x7.Slices ![0, 0, 0, 6] S4x384x1248x1
  bcast_S4x384x1248x1_S4x384x1248x62_0_1_2_3 : S4x384x1248x1.BroadcastsInDim S4x384x1248x62 (![0, 1, 2, 3] : Fin 4 → Fin S4x384x1248x62.rank)
  dot_S4x384x1248x6_S62x6_S4x384x1248x62_3_1_012_0_n_n_wf : DotDims.WF S4x384x1248x6 S62x6 S4x384x1248x62 [3] [1] [0, 1, 2] [0] [] []

variable [Facts₀]

def dot_S4x384x1248x6_S62x6_S4x384x1248x62_3_1_012_0_n_n : DotDims S4x384x1248x6 S62x6 S4x384x1248x62 where
  lhsContracting := [3]
  rhsContracting := [1]
  lhsNonContracting := [0, 1, 2]
  rhsNonContracting := [0]
  lhsBatch := []
  rhsBatch := []
  wf := dot_S4x384x1248x6_S62x6_S4x384x1248x62_3_1_012_0_n_n_wf

class Facts : Prop extends Facts₀ where

variable [Facts]
-- ==== Proof.BeliefSpec.lean ====
/-
  What both programs compute, as two functions of the mass array and the membership table, index by index.

  The input holds, for every pixel `(b, h, w)` of a `4 × 384 × 1248` image batch, seven masses: six singleton
  masses `x(b,h,w,0..5)` and the mass of the whole frame `x(b,h,w,6)`. The membership table `T` has one row per
  proper non-empty subset `s` of the six singletons (62 of them) and one column per singleton.
  The SUBSET MASS of subset `s` at a pixel is `∑ₖ x(b,h,w,k) · T(s,k)`, a sum of six products.
  The two results have 64 channels per pixel:
    belief       channel 0 is the constant `0`, channel 63 the constant `1`, channel `j` in between the subset
                 mass of subset `j − 1`;
    plausibility the same, with the mass of the whole frame added to every channel in between.
  The constants are kept as the two words the programs spell (`0x00000000`, `0x3F800000`): both programs use the
  same words, so their values are never needed.
-/
import Idealize.ShloMosaic.Lib.ValueIdx
import Idealize.ShloMosaic.PureOps.Ideal

noncomputable section

open scoped BigOperators

namespace Cert.Belief

open Idealize.ShloMosaic Idealize.ShloMosaic.ValueIdx

/-- The mass array: batch, row, column, seven masses. -/
abbrev Masses : Shape := ⟨4, ![4, 384, 1248, 7]⟩
/-- The membership table: 62 subsets by 6 singletons. -/
abbrev Table : Shape := ⟨2, ![62, 6]⟩
/-- A result array: batch, row, column, 64 channels. -/
abbrev Result : Shape := ⟨4, ![4, 384, 1248, 64]⟩

/-- Singleton `k` among a pixel's seven masses. -/
abbrev single (k : Fin 6) : Fin 7 := ⟨k.val, Nat.lt_succ_of_lt k.isLt⟩
/-- The mass of the whole frame among a pixel's seven masses. -/
abbrev frame : Fin 7 := ⟨6, by decide⟩

/-- The mass of subset `s` at pixel `(b, h, w)`: the singleton masses weighted by the subset's row of the
    table. -/
def subsetMass (x : FVec Ideal Masses .f32) (T : FVec Ideal Table .f32) (b : Fin 4) (h : Fin 384) (w : Fin 1248)
    (s : Fin 62) : EReal :=
  ∑ k : Fin 6, x (ix4 b h w (single k)) * T (ix2 s k)

/-- The subset a channel strictly between 0 and 63 stands for: channel `j` is subset `j − 1`. (Taken modulo 62
    only so that the expression is defined at the two end channels too, where it is not used.) -/
abbrev subsetOf (j : Fin 64) : Fin 62 := ⟨(j.val - 1) % 62, Nat.mod_lt _ (by decide)⟩

/-- The belief array. -/
def belief (x : FVec Ideal Masses .f32) (T : FVec Ideal Table .f32) : FVec Ideal Result .f32 := fun i =>
  if (i 3).val = 0 then Ideal.ofBits .f32 0x00000000#32
  else if (i 3).val = 63 then Ideal.ofBits .f32 0x3F800000#32
  else subsetMass x T (i 0) (i 1) (i 2) (subsetOf (i 3))

/-- The plausibility array. -/
def plausibility (x : FVec Ideal Masses .f32) (T : FVec Ideal Table .f32) : FVec Ideal Result .f32 := fun i =>
  if (i 3).val = 0 then Ideal.ofBits .f32 0x00000000#32
  else if (i 3).val = 63 then Ideal.ofBits .f32 0x3F800000#32
  else subsetMass x T (i 0) (i 1) (i 2) (subsetOf (i 3)) + x (ix4 (i 0) (i 1) (i 2) frame)

theorem belief_first (x : FVec Ideal Masses .f32) (T : FVec Ideal Table .f32) (i : Result.Idx) (h : (i 3).val = 0) :
    belief x T i = Ideal.ofBits .f32 0x00000000#32 := by
  unfold belief; rw [if_pos h]

theorem belief_last (x : FVec Ideal Masses .f32) (T : FVec Ideal Table .f32) (i : Result.Idx) (h : (i 3).val = 63) :
    belief x T i = Ideal.ofBits .f32 0x3F800000#32 := by
  unfold belief; rw [if_neg (by omega), if_pos h]

theorem belief_between (x : FVec Ideal Masses .f32) (T : FVec Ideal Table .f32) (i : Result.Idx)
    (h0 : (i 3).val ≠ 0) (h63 : (i 3).val ≠ 63) :
    belief x T i = subsetMass x T (i 0) (i 1) (i 2) (subsetOf (i 3)) := by
  unfold belief; rw [if_neg h0, if_neg h63]

theorem plausibility_first (x : FVec Ideal Masses .f32) (T : FVec Ideal Table .f32) (i : Result.Idx)
    (h : (i 3).val = 0) : plausibility x T i = Ideal.ofBits .f32 0x00000000#32 := by
  unfold plausibility; rw [if_pos h]

theorem plausibility_last (x : FVec Ideal Masses .f32) (T : FVec Ideal Table .f32) (i : Result.Idx)
    (h : (i 3).val = 63) : plausibility x T i = Ideal.ofBits .f32 0x3F800000#32 := by
  unfold plausibility; rw [if_neg (by omega), if_pos h]

theorem plausibility_between (x : FVec Ideal Masses .f32) (T : FVec Ideal Table .f32) (i : Result.Idx)
    (h0 : (i 3).val ≠ 0) (h63 : (i 3).val ≠ 63) :
    plausibility x T i = subsetMass x T (i 0) (i 1) (i 2) (subsetOf (i 3)) + x (ix4 (i 0) (i 1) (i 2) frame) := by
  unfold plausibility; rw [if_neg h0, if_neg h63]

end Cert.Belief

end
-- ==== Proof.LibConcat3.lean ====
/-
  A concatenation of THREE pieces along one axis, read at an index.

  The result's coordinate on the joined axis falls in exactly one piece: in the first when it is below the first
  piece's extent, in the second when it is at or past that extent and below the first two extents together, in
  the third otherwise. In each case the result's element is the piece's element at the index with the same
  coordinates off the joined axis and, on it, the coordinate less the extents of the pieces before. The three
  lemmas below say so for any shapes and any element type; each is the library's general statement about piece
  `k` of a list of pieces, at `k = 0, 1, 2`, with the extents before the piece summed.
-/
import Idealize.ShloMosaic.Lib.Pipeline.Value

namespace Idealize.ShloMosaic.Concat3

open Idealize.ShloMosaic

variable {α : Type} {t s₁ s₂ s₃ : Shape}

/-- An index whose joined-axis coordinate lies in the FIRST piece reads the first piece, at the same
    coordinates. -/
theorem apply_fst (a : Fin t.rank) (x₁ : s₁.Idx → α) (x₂ : s₂.Idx → α) (x₃ : s₃.Idx → α)
    (h : Shape.Concatenates [s₁, s₂, s₃] t a) (j : t.Idx) (hr : s₁.rank = t.rank) (i : s₁.Idx)
    (hi : ∀ b : Fin s₁.rank, b.cast hr ≠ a → (i b).val = (j (b.cast hr)).val)
    (ha : (i (a.cast hr.symm)).val = (j a).val) :
    concatenate t a [⟨s₁, x₁⟩, ⟨s₂, x₂⟩, ⟨s₃, x₃⟩] h j = x₁ i :=
  concatenate_apply_piece a [⟨s₁, x₁⟩, ⟨s₂, x₂⟩, ⟨s₃, x₃⟩] h j 0 (by simp) s₁ x₁ rfl hr 0 rfl i hi (by omega)

/-- An index whose joined-axis coordinate lies in the SECOND piece reads the second piece, the first piece's
    extent taken off that coordinate. -/
theorem apply_snd (a : Fin t.rank) (x₁ : s₁.Idx → α) (x₂ : s₂.Idx → α) (x₃ : s₃.Idx → α)
    (h : Shape.Concatenates [s₁, s₂, s₃] t a) (j : t.Idx) (hr₁ : s₁.rank = t.rank) (hr : s₂.rank = t.rank)
    (i : s₂.Idx) (hi : ∀ b : Fin s₂.rank, b.cast hr ≠ a → (i b).val = (j (b.cast hr)).val)
    (ha : s₁.size (a.cast hr₁.symm) + (i (a.cast hr.symm)).val = (j a).val) :
    concatenate t a [⟨s₁, x₁⟩, ⟨s₂, x₂⟩, ⟨s₃, x₃⟩] h j = x₂ i :=
  concatenate_apply_piece a [⟨s₁, x₁⟩, ⟨s₂, x₂⟩, ⟨s₃, x₃⟩] h j 1 (by simp) s₂ x₂ rfl hr
    (s₁.size (a.cast hr₁.symm))
    (by show (if h : s₁.rank = t.rank then s₁.size (a.cast h.symm) else 0) + 0 = _
        rw [dif_pos hr₁, Nat.add_zero])
    i hi ha

/-- An index whose joined-axis coordinate lies in the THIRD piece reads the third piece, the first two pieces'
    extents taken off that coordinate. -/
theorem apply_thd (a : Fin t.rank) (x₁ : s₁.Idx → α) (x₂ : s₂.Idx → α) (x₃ : s₃.Idx → α)
    (h : Shape.Concatenates [s₁, s₂, s₃] t a) (j : t.Idx) (hr₁ : s₁.rank = t.rank) (hr₂ : s₂.rank = t.rank)
    (hr : s₃.rank = t.rank) (i : s₃.Idx)
    (hi : ∀ b : Fin s₃.rank, b.cast hr ≠ a → (i b).val = (j (b.cast hr)).val)
    (ha : s₁.size (a.cast hr₁.symm) + s₂.size (a.cast hr₂.symm) + (i (a.cast hr.symm)).val = (j a).val) :
    concatenate t a [⟨s₁, x₁⟩, ⟨s₂, x₂⟩, ⟨s₃, x₃⟩] h j = x₃ i :=
  concatenate_apply_piece a [⟨s₁, x₁⟩, ⟨s₂, x₂⟩, ⟨s₃, x₃⟩] h j 2 (by simp) s₃ x₃ rfl hr
    (s₁.size (a.cast hr₁.symm) + s₂.size (a.cast hr₂.symm))
    (by show (if h : s₁.rank = t.rank then s₁.size (a.cast h.symm) else 0)
            + ((if h : s₂.rank = t.rank then s₂.size (a.cast h.symm) else 0) + 0) = _
        rw [dif_pos hr₁, dif_pos hr₂, Nat.add_zero])
    i hi ha

end Idealize.ShloMosaic.Concat3
-- ==== Proof.KernelBlock.lean ====
/-
  What the kernel body writes for one block of eight image rows, index by index.

  The body reads a block `v` of masses (eight rows of 1248 pixels, seven masses each) and the transposed
  membership table `u` (6 singletons by 62 subsets). It lays the block out as 9984 pixel rows `r = 1248·a + w`,
  multiplies the six singleton columns into `u` (into a zero accumulator, so the product at `(r, s)` is the plain
  sum `∑ₖ v(a,w,k) · u(k,s)`), puts a column of zeros in front and a column of ones behind, and lays the result
  out again as eight rows of 1248 pixels with 64 channels. The second result adds the pixel's seventh mass to
  the 62 middle channels first. The narrowing of both factors to 16-bit floats is the identity on extended
  reals.
-/
import proofs.«114396_j35656818492190_1_alg».proof.Proof.Gen.KernelIdeal.Skeleton
import proofs.«114396_j35656818492190_1_alg».proof.Proof.BeliefSpec
import proofs.«114396_j35656818492190_1_alg».proof.Proof.LibConcat3
import Idealize.ShloMosaic.Lib.Pipeline.Value
import Idealize.ShloMosaic.Lib.ValueIdx
import Idealize.ShloMosaic.PureOps.Ideal.Laws

noncomputable section

open scoped BigOperators

namespace Cert.Belief.Kernel

open Cert.KernelIdeal Cert.KernelIdeal.Gen
open Idealize.ShloMosaic Idealize.ShloMosaic.ValueIdx Cert.Belief

/-- Pixel `(a, w)` of a block is pixel row `1248·a + w` of its flat layout. -/
abbrev pixelRow (a : Fin 8) (w : Fin 1248) : Fin 9984 :=
  ⟨a.val * 1248 + w.val, by have := a.isLt; have := w.isLt; omega⟩

/-- The subset mass of subset `s` at pixel `(a, w)` of a block, against the transposed table. -/
def blockMass (v : Vec Ideal S1x8x1248x7 .f32) (u : Vec Ideal S6x62 .f32) (a : Fin 8) (w : Fin 1248) (s : Fin 62) :
    EReal :=
  ∑ k : Fin 6, v (ix4 (0 : Fin 1) a w (single k)) * u (ix2 k s)

/-! ## The flat layout of the block -/

/-- The flat layout at pixel row `1248·a + w`, mass `k`, is the block at `(a, w, k)`. -/
theorem flat_apply (v : Vec Ideal S1x8x1248x7 .f32) (a : Fin 8) (w : Fin 1248) (k : Fin 7) :
    k0_pay1 (F := Ideal) v (ix2 (pixelRow a w) k) = v (ix4 (0 : Fin 1) a w k) := by
  unfold k0_pay1
  refine shapeCast_apply v shapeCasts_S1x8x1248x7_S9984x7 (ix2 (pixelRow a w) k) (ix4 (0 : Fin 1) a w k) ?_
  rw [Shape.rowMajor_val_two, Shape.rowMajor_val_four]
  show (((0 : ℕ) * 8 + a.val) * 1248 + w.val) * 7 + k.val = (a.val * 1248 + w.val) * 7 + k.val
  omega

/-! ## The product -/

theorem lhs_axis0 (i : S9984x62.Idx) (q : dot_S9984x6_S6x62_S9984x62_1_0_0_1_n_n.contr.Idx) :
    (dot_S9984x6_S6x62_S9984x62_1_0_0_1_n_n.lhsIdx i q 0).val = (i 0).val := by
  unfold DotDims.lhsIdx
  rw [dif_neg (show ¬(0 : Fin S9984x6.rank) ∈ dot_S9984x6_S6x62_S9984x62_1_0_0_1_n_n.lhsBatch by decide), dif_pos (show (0 : Fin S9984x6.rank) ∈ dot_S9984x6_S6x62_S9984x62_1_0_0_1_n_n.lhsNonContracting by decide)]
  rfl
theorem lhs_axis1 (i : S9984x62.Idx) (q : dot_S9984x6_S6x62_S9984x62_1_0_0_1_n_n.contr.Idx) :
    (dot_S9984x6_S6x62_S9984x62_1_0_0_1_n_n.lhsIdx i q 1).val = (q ⟨0, by decide⟩).val :=
  dot_S9984x6_S6x62_S9984x62_1_0_0_1_n_n.lhsIdx_val_of_single rfl i q
theorem rhs_axis0 (i : S9984x62.Idx) (q : dot_S9984x6_S6x62_S9984x62_1_0_0_1_n_n.contr.Idx) :
    (dot_S9984x6_S6x62_S9984x62_1_0_0_1_n_n.rhsIdx i q 0).val = (q ⟨0, by decide⟩).val :=
  dot_S9984x6_S6x62_S9984x62_1_0_0_1_n_n.rhsIdx_val_of_single rfl i q
theorem rhs_axis1 (i : S9984x62.Idx) (q : dot_S9984x6_S6x62_S9984x62_1_0_0_1_n_n.contr.Idx) :
    (dot_S9984x6_S6x62_S9984x62_1_0_0_1_n_n.rhsIdx i q 1).val = (i 1).val := by
  unfold DotDims.rhsIdx
  rw [dif_neg (show ¬(1 : Fin S6x62.rank) ∈ dot_S9984x6_S6x62_S9984x62_1_0_0_1_n_n.rhsBatch by decide), dif_pos (show (1 : Fin S6x62.rank) ∈ dot_S9984x6_S6x62_S9984x62_1_0_0_1_n_n.rhsNonContracting by decide)]
  rfl

/-- The six singleton columns cut out of any flat layout `y`: entry `(r, k)` is `y(r, k)`. -/
theorem singles_apply (y : FVec Ideal S9984x7 .f32) (r : Fin 9984) (k : Fin 6) :
    extractStridedSlice S9984x6 ![0, 0] y slices_S9984x7_o0_0_S9984x6 (ix2 r k) = y (ix2 r (single k)) :=
  extractStridedSlice_apply ![0, 0] y slices_S9984x7_o0_0_S9984x6 (ix2 r k) (ix2 r (single k)) (fun b => match b with
    | ⟨0, _⟩ => by show r.val = 0 + r.val; omega
    | ⟨1, _⟩ => by show k.val = 0 + k.val; omega)

/-- The seventh column cut out of any flat layout `y`: entry `(r, 0)` is `y(r, 6)`. -/
theorem frame_column_apply (y : FVec Ideal S9984x7 .f32) (r : Fin 9984) (q : Fin 1) :
    extractStridedSlice S9984x1 ![0, 6] y slices_S9984x7_o0_6_S9984x1 (ix2 r q) = y (ix2 r frame) :=
  extractStridedSlice_apply ![0, 6] y slices_S9984x7_o0_6_S9984x1 (ix2 r q) (ix2 r frame) (fun b => match b with
    | ⟨0, _⟩ => by show r.val = 0 + r.val; omega
    | ⟨1, _⟩ => by show (6 : ℕ) = 6 + q.val; have := q.isLt; omega)

/-- A column spread over the 62 middle channels: entry `(r, s)` is the column's entry `(r, 0)`. -/
theorem spread_apply (y : FVec Ideal S9984x1 .f32) (r : Fin 9984) (s : Fin 62) :
    broadcastTo S9984x62 y broadcasts_S9984x1_S9984x62 (ix2 r s) = y (ix2 r (0 : Fin 1)) :=
  broadcastTo_apply y broadcasts_S9984x1_S9984x62 (ix2 r s) (ix2 r (0 : Fin 1)) (fun b => match b with
    | ⟨0, _⟩ => by show r.val = if (9984 : ℕ) = 1 then 0 else r.val; rw [if_neg (by decide)]
    | ⟨1, _⟩ => by show (0 : ℕ) = if (1 : ℕ) = 1 then 0 else s.val; rw [if_pos rfl])

/-- The product into the zero accumulator at `(1248·a + w, s)` is the block's subset mass. -/
theorem product_apply (v : Vec Ideal S1x8x1248x7 .f32) (u : Vec Ideal S6x62 .f32) (a : Fin 8) (w : Fin 1248)
    (s : Fin 62) : k0_pay2 (F := Ideal) v u (ix2 (pixelRow a w) s) = blockMass v u a w s := by
  unfold k0_pay2 blockMass
  refine (Ideal.matmul_constant_zero_apply dot_S9984x6_S6x62_S9984x62_1_0_0_1_n_n none _ _ (ix2 (pixelRow a w) s)).trans ?_
  rw [← Equiv.sum_comp (contrEquiv1 dot_S9984x6_S6x62_S9984x62_1_0_0_1_n_n 6 rfl rfl).symm]
  refine Finset.sum_congr rfl fun k _ => ?_
  have hk := contrEquiv1_symm_val dot_S9984x6_S6x62_S9984x62_1_0_0_1_n_n 6 rfl rfl k
  have el : dot_S9984x6_S6x62_S9984x62_1_0_0_1_n_n.lhsIdx (ix2 (pixelRow a w) s) ((contrEquiv1 dot_S9984x6_S6x62_S9984x62_1_0_0_1_n_n 6 rfl rfl).symm k) = ix2 (pixelRow a w) k :=
    funext fun b => Fin.ext (by
      match b with
      | ⟨0, _⟩ => exact lhs_axis0 _ _
      | ⟨1, _⟩ => exact (lhs_axis1 _ _).trans hk)
  have er : dot_S9984x6_S6x62_S9984x62_1_0_0_1_n_n.rhsIdx (ix2 (pixelRow a w) s) ((contrEquiv1 dot_S9984x6_S6x62_S9984x62_1_0_0_1_n_n 6 rfl rfl).symm k) = ix2 k s :=
    funext fun b => Fin.ext (by
      match b with
      | ⟨0, _⟩ => exact (rhs_axis0 _ _).trans hk
      | ⟨1, _⟩ => exact rhs_axis1 _ _)
  rw [el, er]
  show extractStridedSlice S9984x6 ![0, 0] (k0_pay1 (F := Ideal) v) slices_S9984x7_o0_0_S9984x6 (ix2 (pixelRow a w) k)
      * shapeCast S6x62 u shapeCasts_S6x62_S6x62 (ix2 k s) = _
  rw [singles_apply, flat_apply, shapeCast_self]

/-! ## The two joined rows -/

/-- Off the channel axis an index of a piece and the index of the joined row have the same coordinates. -/
theorem off_channel {n : Nat} (r : Fin 9984) (q : Fin n) (j : Fin 64) (b : Fin 2) (hb : b ≠ 1) :
    ((ix2 r q : (⟨2, ![9984, n]⟩ : Shape).Idx) b).val = ((ix2 r j : (⟨2, ![9984, 64]⟩ : Shape).Idx) b).val := by
  match b with
  | ⟨0, _⟩ => rfl
  | ⟨1, _⟩ => exact absurd (Fin.ext rfl) hb

/-- A row joined from a zero, 62 values `mid` and a one, at channel `j`. -/
theorem joined_apply (mid : FVec Ideal S9984x62 .f32) (r : Fin 9984) (j : Fin 64) :
    concatenate S9984x64 1 [⟨S9984x1, k0_pay3 (F := Ideal)⟩, ⟨S9984x62, mid⟩, ⟨S9984x1, k0_pay4 (F := Ideal)⟩]
        concatenates_S9984x1_S9984x62_S9984x1_S9984x64_d1 (ix2 r j)
      = if j.val = 0 then Ideal.ofBits .f32 0x00000000#32
        else if j.val = 63 then Ideal.ofBits .f32 0x3F800000#32
        else mid (ix2 r (subsetOf j)) := by
  have hj : j.val < 64 := j.isLt
  by_cases h0 : j.val = 0
  · rw [if_pos h0]
    exact Concat3.apply_fst (s₁ := S9984x1) (s₂ := S9984x62) (s₃ := S9984x1) 1 _ _ _ _ (ix2 r j) rfl
      (ix2 r (0 : Fin 1)) (fun b hb => off_channel r _ j b hb) (by show (0 : ℕ) = j.val; omega)
  by_cases h63 : j.val = 63
  · rw [if_neg h0, if_pos h63]
    exact Concat3.apply_thd (s₁ := S9984x1) (s₂ := S9984x62) (s₃ := S9984x1) 1 _ _ _ _ (ix2 r j) rfl rfl rfl
      (ix2 r (0 : Fin 1)) (fun b hb => off_channel r _ j b hb) (by show 1 + 62 + (0 : ℕ) = j.val; omega)
  · rw [if_neg h0, if_neg h63]
    have hs : (j.val - 1) % 62 = j.val - 1 := Nat.mod_eq_of_lt (by omega)
    exact Concat3.apply_snd (s₁ := S9984x1) (s₂ := S9984x62) (s₃ := S9984x1) 1 _ _ _ _ (ix2 r j) rfl rfl
      (ix2 r (subsetOf j)) (fun b hb => off_channel r _ j b hb) (by show 1 + (j.val - 1) % 62 = j.val; omega)

/-- Eight rows of 1248 pixels with 64 channels laid out from 9984 pixel rows: `(a, w, j)` is `(1248·a + w, j)`. -/
theorem unflat_apply (y : FVec Ideal S9984x64 .f32) (z : Fin 1) (a : Fin 8) (w : Fin 1248) (j : Fin 64) :
    shapeCast S1x8x1248x64 y shapeCasts_S9984x64_S1x8x1248x64 (ix4 z a w j) = y (ix2 (pixelRow a w) j) := by
  refine shapeCast_apply y shapeCasts_S9984x64_S1x8x1248x64 (ix4 z a w j) (ix2 (pixelRow a w) j) ?_
  rw [Shape.rowMajor_val_two, Shape.rowMajor_val_four]
  have hz : z.val = 0 := by have := z.isLt; omega
  show (a.val * 1248 + w.val) * 64 + j.val = ((z.val * 8 + a.val) * 1248 + w.val) * 64 + j.val
  rw [hz]; omega

/-! ## The two stored blocks -/

/-- The first stored block at `(a, w, j)`. -/
theorem belief_block (v : Vec Ideal S1x8x1248x7 .f32) (u : Vec Ideal S6x62 .f32) (z : Fin 1) (a : Fin 8)
    (w : Fin 1248) (j : Fin 64) :
    k0_pay5 (F := Ideal) v u (ix4 z a w j)
      = if j.val = 0 then Ideal.ofBits .f32 0x00000000#32
        else if j.val = 63 then Ideal.ofBits .f32 0x3F800000#32
        else blockMass v u a w (subsetOf j) := by
  unfold k0_pay5
  rw [unflat_apply, joined_apply, product_apply]

/-- The second stored block at `(a, w, j)`. -/
theorem plausibility_block (v : Vec Ideal S1x8x1248x7 .f32) (u : Vec Ideal S6x62 .f32) (z : Fin 1) (a : Fin 8)
    (w : Fin 1248) (j : Fin 64) :
    k0_pay6 (F := Ideal) v u (ix4 z a w j)
      = if j.val = 0 then Ideal.ofBits .f32 0x00000000#32
        else if j.val = 63 then Ideal.ofBits .f32 0x3F800000#32
        else blockMass v u a w (subsetOf j) + v (ix4 (0 : Fin 1) a w frame) := by
  unfold k0_pay6
  rw [unflat_apply, joined_apply]
  refine if_congr Iff.rfl rfl (if_congr Iff.rfl rfl ?_)
  rw [addf_apply, product_apply, spread_apply, frame_column_apply, flat_apply]

end Cert.Belief.Kernel

end
-- ==== Proof.KernelArray.lean ====
/-
  From blocks to arrays: after the kernel's run its two result arrays are the belief and the plausibility array
  of the launched masses and of the membership table the host operations before the call build.

  The grid has one point per batch entry and group of eight image rows. At point `t` the mass window and both
  result windows sit at the same batch entry and the same row group, and at block 0 on the column and channel
  axes (decided over the 192 points), so array pixel `(b, 8·g + a, w)` is pixel `(a, w)` of the block at the point
  with block index `(b, g)`. The table window always holds the whole transposed table: its entry `(k, s)` is the
  table's entry `(s, k)`. So each stored block (KernelBlock) is the matching block of the specification, the
  blocks tile each result array, and each array is the specification as a whole.
-/
import proofs.«114396_j35656818492190_1_alg».proof.Proof.Gen.KernelIdeal.Value
import proofs.«114396_j35656818492190_1_alg».proof.Proof.KernelBlock
import Idealize.ShloMosaic.Lib.StableHlo.Run

set_option maxRecDepth 16384

noncomputable section

open scoped BigOperators

namespace Cert.Belief.Kernel

open Cert.KernelIdeal Cert.KernelIdeal.Gen Cert.KernelIdeal.Value
open Idealize.ShloMosaic Idealize.ShloMosaic.TcCoe Idealize.SL.Sem Idealize.ShloMosaic.StableHlo
open Idealize.ShloMosaic.ValueIdx Cert.Belief
open Idealize.ShloMosaic.Pipeline (Dat)

variable (m : (ℓ : Loc nD τ sig) → Buf (Elt Ideal) ℓ) (ρ : Dev nD → PrngReg)

theorem zeros4 : (![0, 0, 0, 0] : Fin 4 → Nat) = fun _ => 0 := funext fun a => by fin_cases a <;> rfl
theorem zeros2 : (![0, 0] : Fin 2 → Nat) = fun _ => 0 := funext fun a => by fin_cases a <;> rfl

/-! ## The membership table -/

/-- The membership table as the host's integer operations leave it, 62 subsets by 6 singletons: bit `k` of the
    subset number `s + 1`, as a float. Its entries are never evaluated. -/
def table : FVec Ideal S62x6 .f32 :=
  sitofp .f32 (andi (Host.shrsi (broadcastInDim S62x6 ![0, 1] bcast_S62x1_S62x6_0_1 (broadcastInDim S62x1 ![0] bcast_S62_S62x1_0 (addi (broadcastInDim S62 ![] bcast_S_S62 (constantI S_ 32 1#32)) (iotaInDim S62 32 0)))) (broadcastInDim S62x6 ![0, 1] bcast_S1x6_S62x6_0_1 (broadcastInDim S1x6 ![1] bcast_S6_S1x6_1 (iotaInDim S6 32 0)))) (broadcastInDim S62x6 ![] bcast_S_S62x6 (constantI S_ 32 1#32)))

/-- The array the table window stages is the transposed table. -/
theorem transposed_table (c : Dev nD) :
    (V m c main_v12 : S6x62.Idx → EReal) = transpose S6x62 [1, 0] table transposes_S62x6_S6x62_1_0 := by
  dsimp only [V, hostOps0]; after_results; rfl

/-! ## The input windows' blocks -/

/-- The block of masses at point `t`. -/
abbrev massBlock (c : Dev nD) (t : Fin cfg0.N) : Vec Ideal S1x8x1248x7 .f32 := iblk m c 0 t
/-- The block of the transposed table at point `t` (always the whole of it). -/
abbrev tableBlock (c : Dev nD) (t : Fin cfg0.N) : Vec Ideal S6x62 .f32 := iblk m c 1 t

/-- The printed index maps, decided over the 192 grid points: the mass window moves with output window 2 on the
    batch and row-group axes and both stay at block 0 on the column and channel axes; the block indices stay in
    range. -/
theorem index_facts2 : ∀ t : Fin cfg0.N,
    win0_2.index t (0 : Fin 4) = win0_0.index t (0 : Fin 4) ∧ win0_2.index t (1 : Fin 4) = win0_0.index t (1 : Fin 4)
    ∧ win0_0.index t (2 : Fin 4) = 0 ∧ win0_0.index t (3 : Fin 4) = 0
    ∧ win0_2.index t (2 : Fin 4) = 0 ∧ win0_2.index t (3 : Fin 4) = 0
    ∧ 0 ≤ win0_2.index t (0 : Fin 4) ∧ win0_2.index t (0 : Fin 4) ≤ 3
    ∧ 0 ≤ win0_2.index t (1 : Fin 4) ∧ win0_2.index t (1 : Fin 4) ≤ 47 :=
  (by decide +kernel : ∀ t : Fin grid0.N, _)

/-- The printed index maps, decided over the 192 grid points: the mass window moves with output window 3 on the
    batch and row-group axes and both stay at block 0 on the column and channel axes; the block indices stay in
    range. -/
theorem index_facts3 : ∀ t : Fin cfg0.N,
    win0_3.index t (0 : Fin 4) = win0_0.index t (0 : Fin 4) ∧ win0_3.index t (1 : Fin 4) = win0_0.index t (1 : Fin 4)
    ∧ win0_0.index t (2 : Fin 4) = 0 ∧ win0_0.index t (3 : Fin 4) = 0
    ∧ win0_3.index t (2 : Fin 4) = 0 ∧ win0_3.index t (3 : Fin 4) = 0
    ∧ 0 ≤ win0_3.index t (0 : Fin 4) ∧ win0_3.index t (0 : Fin 4) ≤ 3
    ∧ 0 ≤ win0_3.index t (1 : Fin 4) ∧ win0_3.index t (1 : Fin 4) ≤ 47 :=
  (by decide +kernel : ∀ t : Fin grid0.N, _)

/-- The table window stays at block `(0, 0)`. -/
theorem table_index : ∀ t : Fin cfg0.N, win0_1.index t (0 : Fin 2) = 0 ∧ win0_1.index t (1 : Fin 2) = 0 :=
  (by decide +kernel : ∀ t : Fin grid0.N, _)

/-- The table block's entry `(k, s)` is the table's entry `(s, k)`. -/
theorem tableBlock_apply (c : Dev nD) (t : Fin cfg0.N) (k : Fin 6) (s : Fin 62) :
    tableBlock m c t (ix2 k s) = table (ix2 s k) := by
  show V m c main_v12 (((cfg0.win 1).blk t).view.emb (ix2 k s)) = _
  obtain ⟨g0, g1⟩ := table_index t
  have he : ((cfg0.win 1).blk t).view.emb (ix2 k s) = (ix2 k s : S6x62.Idx) := by
    funext d; apply Fin.ext
    match d with
    | ⟨0, _⟩ => show win0_1.index t (0 : Fin 2) * 6 + 1 * k.val = k.val; omega
    | ⟨1, _⟩ => show win0_1.index t (1 : Fin 2) * 62 + 1 * s.val = s.val; omega
  rw [he, transposed_table]
  exact transpose_apply [1, 0] table transposes_S62x6_S6x62_1_0 (ix2 k s) (ix2 s k) (fun b => match b with
    | ⟨0, _⟩ => rfl
    | ⟨1, _⟩ => rfl)

/-- The mass block's pixel `(a, w)` is the array's pixel `(B, H, w)` for the point's batch entry `B` and the row
    `H` = eight times the point's row group plus `a`. -/
theorem massBlock_apply (c : Dev nD) (t : Fin cfg0.N) (a : Fin 8) (w : Fin 1248) (k : Fin 7) (B : Fin 4) (H : Fin 384)
    (hB : B.val = win0_0.index t (0 : Fin 4)) (hH : H.val = win0_0.index t (1 : Fin 4) * 8 + a.val) :
    massBlock m c t (ix4 (0 : Fin 1) a w k) = V m c main_arg0 (ix4 B H w k) := by
  show V m c main_arg0 (((cfg0.win 0).blk t).view.emb (ix4 (0 : Fin 1) a w k)) = _
  obtain ⟨-, -, g2, g3, -⟩ := index_facts2 t
  have he : ((cfg0.win 0).blk t).view.emb (ix4 (0 : Fin 1) a w k) = (ix4 B H w k : S4x384x1248x7.Idx) := by
    funext d; apply Fin.ext
    match d with
    | ⟨0, _⟩ => show win0_0.index t (0 : Fin 4) * 1 + 1 * 0 = B.val; omega
    | ⟨1, _⟩ => show win0_0.index t (1 : Fin 4) * 8 + 1 * a.val = H.val; omega
    | ⟨2, _⟩ => show win0_0.index t (2 : Fin 4) * 1248 + 1 * w.val = w.val; omega
    | ⟨3, _⟩ => show win0_0.index t (3 : Fin 4) * 7 + 1 * k.val = k.val; omega
  rw [he]

/-- The block's subset mass at pixel `(a, w)` is the array's subset mass at pixel `(B, H, w)`. -/
theorem blockMass_eq (c : Dev nD) (t : Fin cfg0.N) (a : Fin 8) (w : Fin 1248) (s : Fin 62) (B : Fin 4) (H : Fin 384)
    (hB : B.val = win0_0.index t (0 : Fin 4)) (hH : H.val = win0_0.index t (1 : Fin 4) * 8 + a.val) :
    blockMass (massBlock m c t) (tableBlock m c t) a w s = subsetMass (V m c main_arg0) table B H w s := by
  unfold blockMass subsetMass
  refine Finset.sum_congr rfl fun k _ => ?_
  rw [tableBlock_apply m c t k s, massBlock_apply m c t a w (single k) B H hB hH]

/-! ## Output window 2: the belief array -/

/-- An index of the array is in point `t`'s block iff each coordinate is in the block's range on its axis. -/
theorem mem_block2 (t : Fin cfg0.N) (i : S4x384x1248x64.Idx) :
    i ∈ ((cfg0.win 2).blk t).view.set ↔ ∀ a : Fin 4, win0_2.index t a * S1x8x1248x64.size a ≤ (i a).val ∧ (i a).val < win0_2.index t a * S1x8x1248x64.size a + S1x8x1248x64.size a := by
  show i ∈ ((View.whole main_v13_0).slice (win0_2.rect t)).set ↔ _
  rw [View.set_slice_whole, Rect.mem_set_unit]
  exact Iff.rfl

/-- Every batch entry and every group of eight rows is some grid point's block. -/
theorem onto2 : ∀ (q0 : Fin 4) (q1 : Fin 48), ∃ t : Fin cfg0.N, win0_2.index t = ![q0.val, q1.val, 0, 0] :=
  (by decide +kernel : ∀ (q0 : Fin 4) (q1 : Fin 48), ∃ t : Fin grid0.N, win0_2.index t = ![q0.val, q1.val, 0, 0])

/-- The blocks tile the array: row `h` of batch entry `b` lies in the block of the point with block index
    `(b, h / 8)`. -/
theorem cover2 (i : S4x384x1248x64.Idx) :
    ∃ t : Fin cfg0.N, (cfg0.win 2).flush t = true ∧ i ∈ ((cfg0.win 2).blk t).view.set := by
  have hi0 : (i 0).val < 4 := (i 0).isLt
  have hi1 : (i 1).val < 384 := (i 1).isLt
  have hi2 : (i 2).val < 1248 := (i 2).isLt
  have hi3 : (i 3).val < 64 := (i 3).isLt
  obtain ⟨t, ht⟩ := onto2 ⟨(i 0).val, hi0⟩ ⟨(i 1).val / 8, by omega⟩
  have q0 : win0_2.index t (0 : Fin 4) = (i 0).val := congrFun ht 0
  have q1 : win0_2.index t (1 : Fin 4) = (i 1).val / 8 := congrFun ht 1
  have q2 : win0_2.index t (2 : Fin 4) = 0 := congrFun ht 2
  have q3 : win0_2.index t (3 : Fin 4) = 0 := congrFun ht 3
  refine ⟨t, flush0_2 t, ?_⟩
  rw [mem_block2]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 1248 ≤ (i 2).val ∧ (i 2).val < win0_2.index t (2 : Fin 4) * 1248 + 1248; omega
  | ⟨3, _⟩ => show win0_2.index t (3 : Fin 4) * 64 ≤ (i 3).val ∧ (i 3).val < win0_2.index t (3 : Fin 4) * 64 + 64; omega

/-- What point `t` writes back to this window is block `t` of the belief array of the masses and the table. -/
theorem flushed2_eq (c : Dev nD) (t : Fin cfg0.N) :
    (dats m 0 c).flushed 2 t = ((cfg0.win 2).blk t).view.read (Elt Ideal) (belief (V m c main_arg0) table) := by
  rw [Value.flushed2]
  unfold out0_2
  rw [View.canon_unit_zero zeros4]
  simp only [View.ld_unit_zero (S := S1x8x1248x7) zeros4, View.ld_unit_zero (S := S6x62) zeros2]
  funext y
  obtain ⟨z, a, w, j, rfl⟩ : ∃ (z : Fin 1) (a : Fin 8) (w : Fin 1248) (j : Fin 64), y = ix4 z a w j :=
    ⟨y 0, y 1, y 2, y 3, eq_ix4 y⟩
  show k0_pay5 (F := Ideal) (massBlock m c t) (tableBlock m c t) (ix4 z a w j)
    = belief (V m c main_arg0) table (((cfg0.win 2).blk t).view.emb (ix4 z a w j))
  rw [belief_block]
  obtain ⟨e0, e1, -, -, f0, f1, f2, f3, b0, b1⟩ := index_facts2 t
  have hz : z.val = 0 := by have := z.isLt; omega
  have ha : a.val < 8 := a.isLt
  have hB : win0_2.index t (0 : Fin 4) * 1 + 1 * z.val < 4 := by omega
  have hH : win0_2.index t (1 : Fin 4) * 8 + 1 * a.val < 384 := by omega
  have hi : ((cfg0.win 2).blk t).view.emb (ix4 z a w j)
      = ix4 (⟨win0_2.index t (0 : Fin 4) * 1 + 1 * z.val, hB⟩ : Fin 4) (⟨win0_2.index t (1 : Fin 4) * 8 + 1 * a.val, hH⟩ : Fin 384) w j := by
    funext d; apply Fin.ext
    match d with
    | ⟨0, _⟩ => rfl
    | ⟨1, _⟩ => rfl
    | ⟨2, _⟩ => show win0_2.index t (2 : Fin 4) * 1248 + 1 * w.val = w.val; omega
    | ⟨3, _⟩ => show win0_2.index t (3 : Fin 4) * 64 + 1 * j.val = j.val; omega
  rw [hi]
  by_cases h0 : j.val = 0
  · rw [if_pos h0, belief_first _ _ (ix4 _ _ w j) h0]
  by_cases h63 : j.val = 63
  · rw [if_neg h0, if_pos h63, belief_last _ _ (ix4 _ _ w j) h63]
  · rw [if_neg h0, if_neg h63, belief_between _ _ (ix4 _ _ w j) h0 h63]
    show _ = subsetMass (V m c main_arg0) table _ _ w (subsetOf j)
    have hB0 : win0_2.index t (0 : Fin 4) * 1 + 1 * z.val = win0_0.index t (0 : Fin 4) := by omega
    have hH0 : win0_2.index t (1 : Fin 4) * 8 + 1 * a.val = win0_0.index t (1 : Fin 4) * 8 + a.val := by omega
    exact blockMass_eq m c t a w (subsetOf j) ⟨_, hB⟩ ⟨_, hH⟩ hB0 hH0

/-- After the run this window's array is the belief array of the launched masses and the table. -/
theorem final2 (c : Dev nD) :
    (dats m 0 c).arrAt 2 cfg0.N = belief (m ((c : Thread nD τ).loc main_arg0)) table := by
  rw [(dats m 0 c).arrAt_eq_of_cover 2 (belief (V m c main_arg0) table) (fun t _ => flushed2_eq m c t) cover2,
    V_main_arg0]

/-! ## Output window 3: the plausibility array -/

/-- An index of the array is in point `t`'s block iff each coordinate is in the block's range on its axis. -/
theorem mem_block3 (t : Fin cfg0.N) (i : S4x384x1248x64.Idx) :
    i ∈ ((cfg0.win 3).blk t).view.set ↔ ∀ a : Fin 4, win0_3.index t a * S1x8x1248x64.size a ≤ (i a).val ∧ (i a).val < win0_3.index t a * S1x8x1248x64.size a + S1x8x1248x64.size a := by
  show i ∈ ((View.whole main_v13_1).slice (win0_3.rect t)).set ↔ _
  rw [View.set_slice_whole, Rect.mem_set_unit]
  exact Iff.rfl

/-- Every batch entry and every group of eight rows is some grid point's block. -/
theorem onto3 : ∀ (q0 : Fin 4) (q1 : Fin 48), ∃ t : Fin cfg0.N, win0_3.index t = ![q0.val, q1.val, 0, 0] :=
  (by decide +kernel : ∀ (q0 : Fin 4) (q1 : Fin 48), ∃ t : Fin grid0.N, win0_3.index t = ![q0.val, q1.val, 0, 0])

/-- The blocks tile the array: row `h` of batch entry `b` lies in the block of the point with block index
    `(b, h / 8)`. -/
theorem cover3 (i : S4x384x1248x64.Idx) :
    ∃ t : Fin cfg0.N, (cfg0.win 3).flush t = true ∧ i ∈ ((cfg0.win 3).blk t).view.set := by
  have hi0 : (i 0).val < 4 := (i 0).isLt
  have hi1 : (i 1).val < 384 := (i 1).isLt
  have hi2 : (i 2).val < 1248 := (i 2).isLt
  have hi3 : (i 3).val < 64 := (i 3).isLt
  obtain ⟨t, ht⟩ := onto3 ⟨(i 0).val, hi0⟩ ⟨(i 1).val / 8, by omega⟩
  have q0 : win0_3.index t (0 : Fin 4) = (i 0).val := congrFun ht 0
  have q1 : win0_3.index t (1 : Fin 4) = (i 1).val / 8 := congrFun ht 1
  have q2 : win0_3.index t (2 : Fin 4) = 0 := congrFun ht 2
  have q3 : win0_3.index t (3 : Fin 4) = 0 := congrFun ht 3
  refine ⟨t, flush0_3 t, ?_⟩
  rw [mem_block3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 8 ≤ (i 1).val ∧ (i 1).val < win0_3.index t (1 : Fin 4) * 8 + 8; omega
  | ⟨2, _⟩ => show win0_3.index t (2 : Fin 4) * 1248 ≤ (i 2).val ∧ (i 2).val < win0_3.index t (2 : Fin 4) * 1248 + 1248; omega
  | ⟨3, _⟩ => show win0_3.index t (3 : Fin 4) * 64 ≤ (i 3).val ∧ (i 3).val < win0_3.index t (3 : Fin 4) * 64 + 64; omega

/-- What point `t` writes back to this window is block `t` of the plausibility array of the masses and the table. -/
theorem flushed3_eq (c : Dev nD) (t : Fin cfg0.N) :
    (dats m 0 c).flushed 3 t = ((cfg0.win 3).blk t).view.read (Elt Ideal) (plausibility (V m c main_arg0) table) := by
  rw [Value.flushed3]
  unfold out0_3
  rw [View.canon_unit_zero zeros4]
  simp only [View.ld_unit_zero (S := S1x8x1248x7) zeros4, View.ld_unit_zero (S := S6x62) zeros2]
  funext y
  obtain ⟨z, a, w, j, rfl⟩ : ∃ (z : Fin 1) (a : Fin 8) (w : Fin 1248) (j : Fin 64), y = ix4 z a w j :=
    ⟨y 0, y 1, y 2, y 3, eq_ix4 y⟩
  show k0_pay6 (F := Ideal) (massBlock m c t) (tableBlock m c t) (ix4 z a w j)
    = plausibility (V m c main_arg0) table (((cfg0.win 3).blk t).view.emb (ix4 z a w j))
  rw [plausibility_block]
  obtain ⟨e0, e1, -, -, f0, f1, f2, f3, b0, b1⟩ := index_facts3 t
  have hz : z.val = 0 := by have := z.isLt; omega
  have ha : a.val < 8 := a.isLt
  have hB : win0_3.index t (0 : Fin 4) * 1 + 1 * z.val < 4 := by omega
  have hH : win0_3.index t (1 : Fin 4) * 8 + 1 * a.val < 384 := by omega
  have hi : ((cfg0.win 3).blk t).view.emb (ix4 z a w j)
      = ix4 (⟨win0_3.index t (0 : Fin 4) * 1 + 1 * z.val, hB⟩ : Fin 4) (⟨win0_3.index t (1 : Fin 4) * 8 + 1 * a.val, hH⟩ : Fin 384) w j := by
    funext d; apply Fin.ext
    match d with
    | ⟨0, _⟩ => rfl
    | ⟨1, _⟩ => rfl
    | ⟨2, _⟩ => show win0_3.index t (2 : Fin 4) * 1248 + 1 * w.val = w.val; omega
    | ⟨3, _⟩ => show win0_3.index t (3 : Fin 4) * 64 + 1 * j.val = j.val; omega
  rw [hi]
  by_cases h0 : j.val = 0
  · rw [if_pos h0, plausibility_first _ _ (ix4 _ _ w j) h0]
  by_cases h63 : j.val = 63
  · rw [if_neg h0, if_pos h63, plausibility_last _ _ (ix4 _ _ w j) h63]
  · rw [if_neg h0, if_neg h63, plausibility_between _ _ (ix4 _ _ w j) h0 h63]
    show _ = subsetMass (V m c main_arg0) table _ _ w (subsetOf j) + V m c main_arg0 (ix4 _ _ w frame)
    have hB0 : win0_3.index t (0 : Fin 4) * 1 + 1 * z.val = win0_0.index t (0 : Fin 4) := by omega
    have hH0 : win0_3.index t (1 : Fin 4) * 8 + 1 * a.val = win0_0.index t (1 : Fin 4) * 8 + a.val := by omega
    exact congrArg₂ (· + ·) (blockMass_eq m c t a w (subsetOf j) ⟨_, hB⟩ ⟨_, hH⟩ hB0 hH0) (massBlock_apply m c t a w frame ⟨_, hB⟩ ⟨_, hH⟩ hB0 hH0)

/-- After the run this window's array is the plausibility array of the launched masses and the table. -/
theorem final3 (c : Dev nD) :
    (dats m 0 c).arrAt 3 cfg0.N = plausibility (m ((c : Thread nD τ).loc main_arg0)) table := by
  rw [(dats m 0 c).arrAt_eq_of_cover 3 (plausibility (V m c main_arg0) table) (fun t _ => flushed3_eq m c t) cover3,
    V_main_arg0]

/-! ## The run -/

/-- Every weakly fair execution of the kernel's program ends with its two results at the belief and the
    plausibility array of the launched masses and the table, the masses unchanged. -/
theorem run : θ_run defs (onTc (τ := τ) (main (F := Ideal))) ⟨m, fun _ => 0, ρ⟩ fun r => ∀ c : Dev nD,
      r.2.mem ((c : Thread nD τ).loc main_v13_0) = belief (m ((c : Thread nD τ).loc main_arg0)) table
      ∧ r.2.mem ((c : Thread nD τ).loc main_v13_1) = plausibility (m ((c : Thread nD τ).loc main_arg0)) table
      ∧ r.2.mem ((c : Thread nD τ).loc main_arg0) = m ((c : Thread nD τ).loc main_arg0) :=
  (θ_run defs _ _).mono (fun r h c => ⟨(h c).1.trans (final2 m c), (h c).2.1.trans (final3 m c), (h c).2.2⟩)
    (run_blocks m ρ)

end Cert.Belief.Kernel

end
-- ==== Proof.ReferenceSpec.lean ====
/-
  The reference computes the belief and plausibility arrays of its argument and of the membership table it
  builds.

  Its contraction of the six singleton masses against the table's rows is, at an output index `(b, h, w, s)`, the
  sum over `k` of `x(b,h,w,k) · T(s,k)`: the subset mass. Each result joins a column of zeros, the 62 channels
  of subset masses (for the plausibility, each with the frame's mass `x(b,h,w,6)` added) and a column of ones
  along the channel axis, so channel 0 reads the zero, channel 63 the one, and channel `j` between them the
  middle piece at `j − 1`.
-/
import proofs.«114396_j35656818492190_1_alg».proof.Proof.Gen.ReferenceIdeal.Read
import proofs.«114396_j35656818492190_1_alg».proof.Proof.BeliefSpec
import proofs.«114396_j35656818492190_1_alg».proof.Proof.LibConcat3

noncomputable section

open scoped BigOperators

namespace Cert.Belief.Reference

open Cert.ReferenceIdeal Cert.ReferenceIdeal.Gen Cert.ReferenceIdeal.Read
open Idealize.ShloMosaic Idealize.ShloMosaic.ValueIdx Cert.Belief

/-- The membership table as the reference's integer operations leave it. -/
abbrev table : FVec Ideal Table .f32 := val_main_v11 (F := Ideal)

/-- The contraction at `(b, h, w, s)` is the subset mass of `s` at the pixel. -/
theorem contraction_apply (x : FVec Ideal Masses .f32) (b : Fin 4) (h : Fin 384) (w : Fin 1248) (s : Fin 62) :
    val_main_v13 (F := Ideal) x (ix4 b h w s) = subsetMass x table b h w s := by
  rw [val_main_v13_apply]
  unfold subsetMass
  refine Finset.sum_congr rfl fun k _ => ?_
  rw [val_main_v12_apply]
  have el : idx_main_v12 (lidx_main_v13 (ix4 b h w s) k) = ix4 b h w (single k) :=
    funext fun a => Fin.ext (by
      match a with
      | ⟨0, _⟩ => rfl
      | ⟨1, _⟩ => rfl
      | ⟨2, _⟩ => rfl
      | ⟨3, _⟩ => rfl)
  have er : ridx_main_v13 (ix4 b h w s) k = ix2 s k :=
    funext fun a => Fin.ext (by
      match a with
      | ⟨0, _⟩ => rfl
      | ⟨1, _⟩ => rfl)
  rw [el, er]

/-- The frame's mass, cut out and spread over the 62 middle channels, read at `(b, h, w, s)`. -/
theorem frame_apply (x : FVec Ideal Masses .f32) (b : Fin 4) (h : Fin 384) (w : Fin 1248) (s : Fin 62) :
    val_main_v19 (F := Ideal) x (ix4 b h w s) = x (ix4 b h w frame) := by
  rw [val_main_v19_apply, val_main_v18_apply]
  exact congrArg x (funext fun a => Fin.ext (by
    match a with
    | ⟨0, _⟩ => rfl
    | ⟨1, _⟩ => rfl
    | ⟨2, _⟩ => rfl
    | ⟨3, _⟩ => rfl))

/-- Off the channel axis an index of a piece and the index of the result have the same coordinates. -/
theorem off_channel {n : Nat} (b : Fin 4) (h : Fin 384) (w : Fin 1248) (q : Fin n) (j : Fin 64)
    (a : Fin 4) (ha : a ≠ 3) : ((ix4 b h w q : (⟨4, ![4, 384, 1248, n]⟩ : Shape).Idx) a).val
      = ((ix4 b h w j : (⟨4, ![4, 384, 1248, 64]⟩ : Shape).Idx) a).val := by
  match a with
  | ⟨0, _⟩ => rfl
  | ⟨1, _⟩ => rfl
  | ⟨2, _⟩ => rfl
  | ⟨3, _⟩ => exact absurd (Fin.ext rfl) ha

/-- The reference's first result is the belief array. -/
theorem first_result (x : FVec Ideal Masses .f32) : val_main_v17 (F := Ideal) x = belief x table := by
  funext i
  obtain ⟨b, h, w, j, rfl⟩ : ∃ b h w j, i = ix4 b h w j := ⟨i 0, i 1, i 2, i 3, eq_ix4 i⟩
  have hj : j.val < 64 := j.isLt
  unfold val_main_v17
  by_cases h0 : j.val = 0
  · rw [belief_first x _ _ h0]
    refine (Concat3.apply_fst (s₁ := S4x384x1248x1) (s₂ := S4x384x1248x62) (s₃ := S4x384x1248x1) 3 _ _ _ _ (ix4 b h w j) rfl (ix4 b h w (0 : Fin 1))
      (fun a ha => off_channel b h w _ j a ha) (by show (0 : ℕ) = j.val; omega)).trans ?_
    rw [val_main_v15_apply]; rfl
  by_cases h63 : j.val = 63
  · rw [belief_last x _ _ h63]
    refine (Concat3.apply_thd (s₁ := S4x384x1248x1) (s₂ := S4x384x1248x62) (s₃ := S4x384x1248x1) 3 _ _ _ _ (ix4 b h w j) rfl rfl rfl (ix4 b h w (0 : Fin 1))
      (fun a ha => off_channel b h w _ j a ha) (by show 1 + 62 + (0 : ℕ) = j.val; omega)).trans ?_
    rw [val_main_v16_apply]; rfl
  · rw [belief_between x _ _ h0 h63]
    have hs : (j.val - 1) % 62 = j.val - 1 := Nat.mod_eq_of_lt (by omega)
    refine (Concat3.apply_snd (s₁ := S4x384x1248x1) (s₂ := S4x384x1248x62) (s₃ := S4x384x1248x1) 3 _ _ _ _ (ix4 b h w j) rfl rfl (ix4 b h w (subsetOf j))
      (fun a ha => off_channel b h w _ j a ha) (by show 1 + (j.val - 1) % 62 = j.val; omega)).trans ?_
    exact contraction_apply x b h w (subsetOf j)

/-- The reference's second result is the plausibility array. -/
theorem second_result (x : FVec Ideal Masses .f32) : val_main_v21 (F := Ideal) x = plausibility x table := by
  funext i
  obtain ⟨b, h, w, j, rfl⟩ : ∃ b h w j, i = ix4 b h w j := ⟨i 0, i 1, i 2, i 3, eq_ix4 i⟩
  have hj : j.val < 64 := j.isLt
  unfold val_main_v21
  by_cases h0 : j.val = 0
  · rw [plausibility_first x _ _ h0]
    refine (Concat3.apply_fst (s₁ := S4x384x1248x1) (s₂ := S4x384x1248x62) (s₃ := S4x384x1248x1) 3 _ _ _ _ (ix4 b h w j) rfl (ix4 b h w (0 : Fin 1))
      (fun a ha => off_channel b h w _ j a ha) (by show (0 : ℕ) = j.val; omega)).trans ?_
    rw [val_main_v15_apply]; rfl
  by_cases h63 : j.val = 63
  · rw [plausibility_last x _ _ h63]
    refine (Concat3.apply_thd (s₁ := S4x384x1248x1) (s₂ := S4x384x1248x62) (s₃ := S4x384x1248x1) 3 _ _ _ _ (ix4 b h w j) rfl rfl rfl (ix4 b h w (0 : Fin 1))
      (fun a ha => off_channel b h w _ j a ha) (by show 1 + 62 + (0 : ℕ) = j.val; omega)).trans ?_
    rw [val_main_v16_apply]; rfl
  · rw [plausibility_between x _ _ h0 h63]
    have hs : (j.val - 1) % 62 = j.val - 1 := Nat.mod_eq_of_lt (by omega)
    refine (Concat3.apply_snd (s₁ := S4x384x1248x1) (s₂ := S4x384x1248x62) (s₃ := S4x384x1248x1) 3 _ _ _ _ (ix4 b h w j) rfl rfl (ix4 b h w (subsetOf j))
      (fun a ha => off_channel b h w _ j a ha) (by show 1 + (j.val - 1) % 62 = j.val; omega)).trans ?_
    rw [val_main_v20_apply, contraction_apply x b h w (subsetOf j), frame_apply x b h w (subsetOf j)]
    rfl

end Cert.Belief.Reference

end
-- ==== Proof.lean ====
/-
  The certificate: the kernel and its reference both compute, for every pixel's seven masses, the belief and the
  plausibility of the 64 subsets of six singletons.

  Both programs build the same 62 × 6 membership table with the same integer operations (the kernel then
  transposes it). The kernel contracts each block of pixels against the transposed table on the matrix unit,
  into a zero accumulator; the reference contracts the whole array against the table. At the ideal values both
  are the same sum of six products per pixel and subset, the narrowing of the factors to 16-bit floats being the
  identity, so no law beyond the sum itself joins the two sides and the finiteness of the masses is never
  used. Both put the constant 0 in channel 0 and the constant 1 in channel 63, spelled by the same two words, and
  the plausibility adds the pixel's seventh mass to the 62 channels in between on both sides.

  The specification is in BeliefSpec, the reference read onto it in ReferenceSpec, the kernel's stored block in
  KernelBlock and its two result arrays in KernelArray. The idealization rewrote nothing, so the kernel's
  idealized program is its own text read at the ideal values.
-/
import proofs.«114396_j35656818492190_1_alg».proof.Defs
import proofs.«114396_j35656818492190_1_alg».proof.Proof.Gen.Kernel
import proofs.«114396_j35656818492190_1_alg».proof.Proof.Gen.Kernel.Skeleton
import proofs.«114396_j35656818492190_1_alg».proof.Proof.Gen.Kernel.Launch
import proofs.«114396_j35656818492190_1_alg».proof.Proof.Gen.Kernel.Points
import proofs.«114396_j35656818492190_1_alg».proof.Proof.Gen.Kernel.Frame
import proofs.«114396_j35656818492190_1_alg».proof.Proof.Gen.KernelIdeal
import proofs.«114396_j35656818492190_1_alg».proof.Proof.Gen.KernelIdeal.Skeleton
import proofs.«114396_j35656818492190_1_alg».proof.Proof.Gen.KernelIdeal.Launch
import proofs.«114396_j35656818492190_1_alg».proof.Proof.Gen.KernelIdeal.Points
import proofs.«114396_j35656818492190_1_alg».proof.Proof.Gen.KernelIdeal.Frame
import proofs.«114396_j35656818492190_1_alg».proof.Proof.Gen.ReferenceIdeal
import proofs.«114396_j35656818492190_1_alg».proof.Proof.Gen.Pre_finite_inputs
import proofs.«114396_j35656818492190_1_alg».proof.Proof.Gen.KernelIdeal.Value
import proofs.«114396_j35656818492190_1_alg».proof.Proof.Gen.ReferenceIdeal.Run
import proofs.«114396_j35656818492190_1_alg».proof.Proof.Gen.ReferenceIdeal.Read
import proofs.«114396_j35656818492190_1_alg».proof.Proof.KernelArray
import proofs.«114396_j35656818492190_1_alg».proof.Proof.ReferenceSpec
import Idealize.ShloMosaic.Adequacy
import Idealize.ShloMosaic.Init

noncomputable section

namespace Cert.Proof

open Idealize.ShloMosaic Idealize.ShloMosaic.TcCoe Idealize.SL.Sem Cert.Belief

/-- Both programs build the membership table with the same operations: one term. -/
theorem tables_agree : Cert.Belief.Reference.table = Cert.Belief.Kernel.table := rfl

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the masses both programs end with the belief and the plausibility array of those
    masses and the one table. -/
theorem algebraic : Cert.algebraic_KernelIdeal_ReferenceIdeal := by
  intro m ρ m' ρ' _ hagree
  refine ⟨fun c => belief (m ((c.tc : Thread Cert.KernelIdeal.nD Cert.KernelIdeal.τ).loc Cert.KernelIdeal.main_arg0)) Cert.Belief.Kernel.table,
    fun c => plausibility (m ((c.tc : Thread Cert.KernelIdeal.nD Cert.KernelIdeal.τ).loc Cert.KernelIdeal.main_arg0)) Cert.Belief.Kernel.table,
    Cert.Belief.Kernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v17_eq, Cert.Belief.Reference.first_result, hagree c, tables_agree]
  · rw [Cert.ReferenceIdeal.Read.val_main_v21_eq, Cert.Belief.Reference.second_result, hagree c, tables_agree]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
